-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S2000x128 : Shape := ⟨2, ![2000, 128]⟩

abbrev nBuf : Space → Nat
  | .hbm => 6
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x128_S2000x128_0_0 : ∀ a, (![0, 0] : Fin 2 → Nat) a + S2000x128.size a ≤ S2000x128.size a
  h_S2000x128 : 0 < S2000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S128x128_S128x128_S128x128_1_0_0_1_n_n_wf : DotDims.WF S128x128 S128x128 S128x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩

abbrev nBuf : Space → Nat
  | .hbm => 9
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S100000x128, .f32⟩
  | .hbm, ⟨5, _⟩ => ⟨S100000x128, .f32⟩
  | .hbm, ⟨6, _⟩ => ⟨S1x128, .f32⟩
  | .hbm, ⟨7, _⟩ => ⟨S100000x128, .f32⟩
  | .hbm, ⟨8, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Reassoc.lean ====
/-
  The mathematics of this certificate, with no program in sight.

  One layer of a graph convolution: the rows of `x` (100000 of them, 128 features each) are multiplied by a weight
  matrix `W1` and then by a dense adjacency matrix `adj` (both 128 by 128), and a bias row `b` is added to every row.
  One program multiplies in the order the formula is written, `(x · W1) · adj + b`; the other forms the combined weight
  `W1 · adj` once and then multiplies each row of `x` by it, `x · (W1 · adj) + b`. Entry `(r, c)` of the first is
    `(∑ j, (∑ k, x r k * W1 k j) * adj j c) + b c`,
  of the second
    `(∑ k, x r k * (∑ j, W1 k j * adj j c)) + b c`.
  Over the real numbers these are equal: distribute each outer factor over the inner sum, exchange the two sums, and
  reassociate each triple product. Over the EXTENDED reals the first step fails (a factor does not distribute over a sum
  of an infinity and its opposite), so the law is stated for arrays all of whose entries are real numbers, and proved by
  carrying both sides into the reals.
-/
import Idealize.ShloMosaic.PureOps.Ideal
import Idealize.ShloMosaic.Lib.ValueIdx

noncomputable section

open scoped BigOperators

namespace Cert.GraphConv

open Idealize.ShloMosaic Idealize.ShloMosaic.ValueIdx

/-- The coercion of the reals into the extended reals commutes with a finite sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Reassociating a product of a row, a matrix and a column, all of real entries, inside the extended reals:
    `∑ k, x k * (∑ j, w k j * a j) = ∑ j, (∑ k, x k * w k j) * a j`. -/
theorem row_matrix_column {ι κ : Type} [Fintype ι] [Fintype κ] (x : ι → EReal) (w : ι → κ → EReal) (a : κ → EReal)
    (hx : ∀ k, ∃ r : ℝ, x k = r) (hw : ∀ k j, ∃ r : ℝ, w k j = r) (ha : ∀ j, ∃ r : ℝ, a j = r) :
    ∑ k, x k * (∑ j, w k j * a j) = ∑ j, (∑ k, x k * w k j) * a j := by
  choose xr hxr using hx
  choose wr hwr using hw
  choose ar har using ha
  have inner : ∀ k, x k * (∑ j, w k j * a j) = ((xr k * ∑ j, wr k j * ar j : ℝ) : EReal) := by
    intro k
    have e : ∑ j, w k j * a j = ((∑ j, wr k j * ar j : ℝ) : EReal) := by
      rw [← coe_sum]
      exact Finset.sum_congr rfl fun j _ => by rw [hwr k j, har j, ← EReal.coe_mul]
    rw [hxr k, e, ← EReal.coe_mul]
  have outer : ∀ j, (∑ k, x k * w k j) * a j = (((∑ k, xr k * wr k j) * ar j : ℝ) : EReal) := by
    intro j
    have e : ∑ k, x k * w k j = ((∑ k, xr k * wr k j : ℝ) : EReal) := by
      rw [← coe_sum]
      exact Finset.sum_congr rfl fun k _ => by rw [hxr k, hwr k j, ← EReal.coe_mul]
    rw [har j, e, ← EReal.coe_mul]
  rw [Finset.sum_congr rfl fun k _ => inner k, Finset.sum_congr rfl fun j _ => outer j, coe_sum, coe_sum]
  refine congrArg _ ?_
  simp only [Finset.mul_sum, Finset.sum_mul]
  rw [Finset.sum_comm]
  exact Finset.sum_congr rfl fun j _ => Finset.sum_congr rfl fun k _ => (mul_assoc _ _ _).symm

/-- The features: 100000 rows of 128. -/
abbrev Rows : Shape := ⟨2, ![100000, 128]⟩
/-- A square matrix on the 128 features. -/
abbrev Square : Shape := ⟨2, ![128, 128]⟩
/-- The bias row. -/
abbrev Bias : Shape := ⟨1, ![128]⟩

/-- The layer with the combined weight formed first: entry `(r, c)` is `(∑ k, x r k * (∑ j, W1 k j * adj j c)) + b c`. -/
def combinedFirst (x : Rows.Idx → EReal) (adj W1 : Square.Idx → EReal) (b : Bias.Idx → EReal) : Rows.Idx → EReal :=
  fun i => (∑ k : Fin 128, x (ix2 (i 0) k) * (∑ j : Fin 128, W1 (ix2 k j) * adj (ix2 j (i 1)))) + b (ix1 (i 1))

/-- The layer multiplied left to right: entry `(r, c)` is `(∑ j, (∑ k, x r k * W1 k j) * adj j c) + b c`. -/
def leftToRight (x : Rows.Idx → EReal) (adj W1 : Square.Idx → EReal) (b : Bias.Idx → EReal) : Rows.Idx → EReal :=
  fun i => (∑ j : Fin 128, (∑ k : Fin 128, x (ix2 (i 0) k) * W1 (ix2 k j)) * adj (ix2 j (i 1))) + b (ix1 (i 1))

/-- On arrays of real entries the two orders of multiplication give one array. (The bias need not be real: it is
    added last on both sides.) -/
theorem leftToRight_eq_combinedFirst (x : Rows.Idx → EReal) (adj W1 : Square.Idx → EReal) (b : Bias.Idx → EReal)
    (hx : ∀ i, ∃ r : ℝ, x i = r) (hadj : ∀ i, ∃ r : ℝ, adj i = r) (hW1 : ∀ i, ∃ r : ℝ, W1 i = r) :
    leftToRight x adj W1 b = combinedFirst x adj W1 b := by
  funext i
  unfold leftToRight combinedFirst
  exact congrArg (· + b (ix1 (i 1)))
    (row_matrix_column (fun k => x (ix2 (i 0) k)) (fun k j => W1 (ix2 k j)) (fun j => adj (ix2 j (i 1)))
      (fun k => hx _) (fun k j => hW1 _) (fun j => hadj _)).symm

end Cert.GraphConv

end
-- ==== Proof.Finite.lean ====
/-
  From the precondition to real entries.

  The precondition says of each of the four arrays that every entry's absolute value is below `+inf`, the four tests
  joined by `and`. An extended real whose absolute value `max x (-x)` is below `+inf` is neither `+inf` nor `-inf`:
  it is a real number. So where the precondition holds, every entry of the features, of the adjacency matrix and of the
  weight matrix is a real number, which is what the reassociation of the two matrix products needs. (The bias is
  finite too, but the proof does not use it: the bias is only added, last, on both sides.)
-/
import proofs.«129754_g77034533421747_cont_sun_c4_52_2_alg».proof.Pre_finite_inputs
import Idealize.ShloMosaic.Lib.ReduceAll
import Idealize.ShloMosaic.Lib.ValueIdx
import Idealize.ShloMosaic.Lib.Affine
import Idealize.ShloMosaic.PureOps.Ideal

noncomputable section

namespace Cert.Pre_finite_inputs.Finite

open Cert.Pre_finite_inputs Idealize.ShloMosaic

/-- The word the tests compare against denotes `+inf`. -/
theorem inf_word : Ideal.ofBits .f32 0x7F800000#32 = (⊤ : EReal) := by
  simp [Ideal.ofBits, Ideal.ieee]

/-- An extended real whose absolute value is below `+inf` is a real number. -/
theorem real_of_abs_lt_top (x : EReal) (h : max x (-x) < ⊤) : ∃ r : ℝ, x = r := by
  induction x using EReal.rec
  · exact absurd h (by simp)
  · exact ⟨_, rfl⟩
  · exact absurd h (by simp)

/-- One entry passing the test `|x| < +inf` is a real number. -/
theorem real_of_test (x : EReal)
    (h : Ideal.cmp .olt (max x (-x)) (Ideal.ofBits .f32 0x7F800000#32) = 1#1) : ∃ r : ℝ, x = r := by
  rw [inf_word] at h
  refine real_of_abs_lt_top x ?_
  have h' : BitVec.ofBool (decide (max x (-x) < ⊤)) = 1#1 := h
  by_contra hn
  rw [decide_eq_false hn] at h'
  exact absurd h' (by decide)

/-- The scalar result has one index. -/
instance : Subsingleton S_.Idx := ⟨fun a b => funext fun d => d.elim0⟩

variable [Facts]

/-- Where the precondition holds, the features, the adjacency matrix and the weight matrix have real entries. -/
theorem entries_real (x : FVec Ideal S100000x128 .f32) (adj W1 : FVec Ideal S128x128 .f32) (b : FVec Ideal S128 .f32)
    (h : fn (F := Ideal) x adj W1 b = fun _ => 1#1) :
    (∀ i, ∃ r : ℝ, x i = r) ∧ (∀ i, ∃ r : ℝ, adj i = r) ∧ (∀ i, ∃ r : ℝ, W1 i = r) := by
  have h0 := congrFun h ValueIdx.ix0
  dsimp only [fn, fn_part1] at h0
  obtain ⟨h123, -⟩ := IntOp.andi_eq_one.1 h0
  obtain ⟨h12, h3⟩ := IntOp.andi_eq_one.1 h123
  obtain ⟨h1, h2⟩ := IntOp.andi_eq_one.1 h12
  refine ⟨fun i => real_of_test _ (Host.reduce_andi_all _ _ _ _ _ h1 i),
    fun i => real_of_test _ (Host.reduce_andi_all _ _ _ _ _ h2 i),
    fun i => real_of_test _ (Host.reduce_andi_all _ _ _ _ _ h3 i)⟩

end Cert.Pre_finite_inputs.Finite

end
-- ==== Proof.RefLayer.lean ====
/-
  The reference, read entry by entry.

  The reference multiplies left to right: first every row of the features by the weight matrix, then every row of that
  product by the adjacency matrix, and last it adds the bias, which it first lays out as one row and then repeats down
  all the rows. Read at entry `(r, c)` each product is a sum over the 128 shared coordinates and the repeated bias is
  the bias at `c`, so the result is
    `(∑ j, (∑ k, x r k * W1 k j) * adj j c) + b c`:
  the layer multiplied left to right.
-/
import proofs.«129754_g77034533421747_cont_sun_c4_52_2_alg».proof.Proof.Gen.ReferenceIdeal.Read
import proofs.«129754_g77034533421747_cont_sun_c4_52_2_alg».proof.Proof.Reassoc

noncomputable section

open scoped BigOperators

namespace Cert.ReferenceIdeal.Layer

open Cert.ReferenceIdeal Cert.ReferenceIdeal.Read Idealize.ShloMosaic Idealize.ShloMosaic.ValueIdx

/-- The first product's left factor, inside the second product's left factor: row `r` of the features at `k`. -/
theorem features_at (i : S100000x128.Idx) (j k : Fin 128) :
    lidx_main_v0 (lidx_main_v1 i j) k = ix2 (i 0) k :=
  funext fun a => Fin.ext (by match a with | ⟨0, _⟩ => rfl | ⟨1, _⟩ => rfl)

/-- The first product's right factor there: the weight at `(k, j)`. -/
theorem weight_at (i : S100000x128.Idx) (j k : Fin 128) :
    ridx_main_v0 (lidx_main_v1 i j) k = ix2 k j :=
  funext fun a => Fin.ext (by match a with | ⟨0, _⟩ => rfl | ⟨1, _⟩ => rfl)

/-- The second product's right factor: the adjacency at `(j, c)`. -/
theorem adjacency_at (i : S100000x128.Idx) (j : Fin 128) : ridx_main_v1 i j = ix2 j (i 1) :=
  funext fun a => Fin.ext (by match a with | ⟨0, _⟩ => rfl | ⟨1, _⟩ => rfl)

/-- The bias repeated down the rows, read at `(r, c)`, is the bias at `c`. -/
theorem bias_at (i : S100000x128.Idx) : idx_main_v2 (idx_main_v3 i) = ix1 (i 1) :=
  funext fun a => Fin.ext (by match a with | ⟨0, _⟩ => rfl)

/-- The reference's result is the layer multiplied left to right. -/
theorem result_eq (x : (⟨S100000x128, .f32⟩ : BufTy).Contents (Elt Ideal)) (adj W1 : (⟨S128x128, .f32⟩ : BufTy).Contents (Elt Ideal))
    (b : (⟨S128, .f32⟩ : BufTy).Contents (Elt Ideal)) :
    val_main_v4 (F := Ideal) x adj W1 b = Cert.GraphConv.leftToRight x adj W1 b := by
  funext i
  rw [val_main_v4_apply, val_main_v1_apply, val_main_v3_apply, val_main_v2_apply]
  simp only [val_main_v0_apply, features_at, weight_at, adjacency_at, bias_at]
  rfl

end Cert.ReferenceIdeal.Layer

end
-- ==== Proof.Pieces.lean ====
/-
  What one grid point of the kernel leaves behind, as pure functions of what it read.

  The body has two stores. Under "this is the first point" it stores into the scratch the product of the two square
  blocks it was handed (the weight block times the adjacency block, accumulated from zero): call that the combined
  weight. At every point it stores into the output block the product of the row block with whatever the scratch holds,
  plus the bias row repeated down the rows. So a first point leaves the combined weight in the scratch and, in the
  output block, rows times that same combined weight plus the bias (the scratch is read back after it was stored);
  any later point leaves the scratch as it found it, and in the output block rows times what the scratch held plus the
  bias. Each store covers its whole buffer from offset zero, so what the buffer holds afterwards is exactly the stored
  value.
-/
import proofs.«129754_g77034533421747_cont_sun_c4_52_2_alg».proof.Proof.Gen.KernelIdeal.Frame
import Idealize.ShloMosaic.Lib.Pipeline.Value
import Idealize.ShloMosaic.Lib.Tactic

noncomputable section

namespace Cert.KernelIdeal.Point

open Cert.KernelIdeal Cert.KernelIdeal.Gen Idealize.ShloMosaic Idealize.ShloMosaic.TcCoe Idealize.SL.Sem

variable {F : FTy → Type} [FloatOps F]

/-- Every store and load of the body starts at offset (0, 0). -/
theorem origin : (![0, 0] : Fin 2 → Nat) = fun _ => 0 := funext fun a => by fin_cases a <;> rfl

/-- A first point leaves the combined weight in the scratch: the product of its two square blocks. -/
theorem scratch_first (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S128x128 .f32) (harg6 : arg6.IsWhole) (hc0 : cond0_0 i)
    (x0 : Vec F S2000x128 .f32) (x1 : Vec F S128x128 .f32) (x2 : Vec F S128x128 .f32) (x3 : Vec F S1x128 .f32) :
    sout0_A_0 c i arg1 harg1 arg2 harg2 arg3 harg3 arg4 harg4 arg5 harg5 arg6 harg6 hc0 x0 x1 x2 x3 = k0_pay1 x1 x2 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  rw [View.canon_unit_zero origin]
  simp only [View.readAt_eq_ld, harg2.read_unread, harg3.read_unread, View.ld_unit_zero (S := S128x128) origin]

/-- A first point leaves in the output block its rows times the combined weight it has just stored, plus the bias. -/
theorem block_first (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S128x128 .f32) (harg6 : arg6.IsWhole) (hc0 : cond0_0 i)
    (x0 : Vec F S2000x128 .f32) (x1 : Vec F S128x128 .f32) (x2 : Vec F S128x128 .f32) (x3 : Vec F S1x128 .f32) :
    out0_A_4 c i arg1 harg1 arg2 harg2 arg3 harg3 arg4 harg4 arg5 harg5 arg6 harg6 hc0 x0 x1 x2 x3 = k0_pay2 x0 (k0_pay1 x1 x2) x3 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero origin]
  simp only [View.readAt_eq_ld, harg1.read_unread, harg2.read_unread, harg3.read_unread, harg4.read_unread,
    View.ld_unit_zero (S := S2000x128) origin, View.ld_unit_zero (S := S128x128) origin,
    View.ld_unit_zero (S := S1x128) origin, View.readCov_unit_zero (S := S128x128) _ origin]

/-- A later point leaves in the output block its rows times what the scratch held, plus the bias. -/
theorem block_later (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S128x128 .f32) (harg6 : arg6.IsWhole) (hc0 : ¬cond0_0 i)
    (x0 : Vec F S2000x128 .f32) (x1 : Vec F S128x128 .f32) (x2 : Vec F S128x128 .f32) (x3 : Vec F S1x128 .f32)
    (xs0 : Vec F S128x128 .f32) :
    out0_B_4 c i arg1 harg1 arg2 harg2 arg3 harg3 arg4 harg4 arg5 harg5 arg6 harg6 hc0 x0 x1 x2 x3 xs0 = k0_pay2 x0 xs0 x3 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  sl_unfold_words
  rw [View.canon_unit_zero origin]
  simp only [View.readAt_eq_ld, harg1.read_unread, harg4.read_unread, harg6.read_unread,
    View.ld_unit_zero (S := S2000x128) origin, View.ld_unit_zero (S := S128x128) origin,
    View.ld_unit_zero (S := S1x128) origin]

/-- A later point stores nothing into the scratch: it holds what it held. -/
theorem scratch_later (c : Dev nD) (i : grid0.Coords) (arg1 : Memref sig .tc .vmem S2000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S128x128 .f32) (harg6 : arg6.IsWhole) (hc0 : ¬cond0_0 i)
    (x0 : Vec F S2000x128 .f32) (x1 : Vec F S128x128 .f32) (x2 : Vec F S128x128 .f32) (x3 : Vec F S1x128 .f32)
    (xs0 : Vec F S128x128 .f32) :
    sout0_B_0 c i arg1 harg1 arg2 harg2 arg3 harg3 arg4 harg4 arg5 harg5 arg6 harg6 hc0 x0 x1 x2 x3 xs0 = xs0 := rfl

end Cert.KernelIdeal.Point

end
-- ==== Proof.Products.lean ====
/-
  The two stored values of the kernel's body, read entry by entry over the extended reals.

  Both are matrix products accumulated from zero, each contracting the second axis of its left factor with the first
  axis of its right factor, over 128 shared coordinates; so entry `(p, q)` of such a product is
  `∑ k, left p k * right k q`. The combined weight is the product of the two square blocks, and the output block is
  the product of the row block with the scratch, plus the bias row: the bias is kept as a one-row block, repeated down
  the 2000 rows of the block, and the repeated array read at `(p, q)` is the one row at `q`.
-/
import proofs.«129754_g77034533421747_cont_sun_c4_52_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Products

open Cert.KernelIdeal Cert.KernelIdeal.Gen Idealize.ShloMosaic Idealize.ShloMosaic.ValueIdx

/-! ## Which coordinates a product's factors are read at -/

theorem square_lhs_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem square_lhs_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem square_rhs_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem square_rhs_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

theorem rows_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem rows_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rows_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rows_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-! ## The products as sums -/

/-- A product of two square blocks from a zero accumulator, at entry `(p, q)`. -/
theorem square_product_at (l : FVec Ideal S128x128 .f32) (r : FVec Ideal S128x128 .f32) (p : Fin 128) (q : Fin 128) :
    matmul dot_S128x128_S128x128_S128x128_1_0_0_1_n_n none l r (constant (F := Ideal) S128x128 .f32 0x00000000#32) (ix2 p q)
      = ∑ k : Fin 128, l (ix2 p k) * r (ix2 k q) := by
  simp only [matmul]
  rw [Ideal.matmul_constant_zero_apply, ← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  have el : dot_S128x128_S128x128_S128x128_1_0_0_1_n_n.lhsIdx (ix2 p q) ((contrEquiv1 dot_S128x128_S128x128_S128x128_1_0_0_1_n_n 128 rfl rfl).symm k) = ix2 p k := funext fun a => Fin.ext (by
    match a with
    | ⟨0, _⟩ => exact square_lhs_0 _ _
    | ⟨1, _⟩ => exact (square_lhs_1 _ _).trans hk)
  have er : dot_S128x128_S128x128_S128x128_1_0_0_1_n_n.rhsIdx (ix2 p q) ((contrEquiv1 dot_S128x128_S128x128_S128x128_1_0_0_1_n_n 128 rfl rfl).symm k) = ix2 k q := funext fun a => Fin.ext (by
    match a with
    | ⟨0, _⟩ => exact (square_rhs_0 _ _).trans hk
    | ⟨1, _⟩ => exact square_rhs_1 _ _)
  rw [el, er]

/-- A product of a row block with a square block from a zero accumulator, at entry `(p, q)`. -/
theorem rows_product_at (l : FVec Ideal S2000x128 .f32) (r : FVec Ideal S128x128 .f32) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact rows_lhs_0 _ _
    | ⟨1, _⟩ => exact (rows_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rows_rhs_0 _ _).trans hk
    | ⟨1, _⟩ => exact rows_rhs_1 _ _)
  rw [el, er]

/-! ## The stored values -/

/-- The combined weight at `(k, q)`: `∑ j, weight k j * adjacency j q`. -/
theorem combined_at (w a : Vec Ideal S128x128 .f32) (k q : Fin 128) :
    k0_pay1 (F := Ideal) w a (ix2 k q) = ∑ j : Fin 128, w (ix2 k j) * a (ix2 j q) := by
  unfold k0_pay1
  rw [shapeCast_self, square_product_at]

/-- The output block at `(p, q)`: `(∑ k, rows p k * scratch k q) + bias q`, the bias read off its one row. -/
theorem block_at (xb : Vec Ideal S2000x128 .f32) (w : Vec Ideal S128x128 .f32) (b : Vec Ideal S1x128 .f32)
    (p : Fin 2000) (q : Fin 128) :
    k0_pay2 (F := Ideal) xb w b (ix2 p q) = (∑ k : Fin 128, xb (ix2 p k) * w (ix2 k q)) + b (ix2 (0 : Fin 1) q) := by
  unfold k0_pay2
  rw [addf_apply, rows_product_at, shapeCast_self, broadcastTo_1b_ab_apply]

end Cert.KernelIdeal.Products

end
-- ==== Proof.KernelLayer.lean ====
/-
  What the kernel's result array holds after the run.

  The grid has 50 points; point `t` is handed rows `2000 t` to `2000 t + 1999` of the features as its row block, and
  the whole weight matrix, the whole adjacency matrix and the whole one-row bias as its other three blocks (their block
  index never moves), and it writes its output block back to the same rows of the result.

  The scratch is carried from point to point. The first point stores the combined weight, weight times adjacency, into
  it, and no later point stores into it: so after every point the scratch holds the combined weight (induction on the
  point). Hence every point, the first included, leaves in its output block its rows times the combined weight, plus
  the bias; entry `(p, q)` of the block of point `t` is entry `(2000 t + p, q)` of the layer with the combined weight
  formed first. The 50 blocks cover all 100000 rows (row `r` lies in the block of point `r / 2000`), so the result
  array is that layer.
-/
import proofs.«129754_g77034533421747_cont_sun_c4_52_2_alg».proof.Proof.Gen.KernelIdeal.Value
import proofs.«129754_g77034533421747_cont_sun_c4_52_2_alg».proof.Proof.Pieces
import proofs.«129754_g77034533421747_cont_sun_c4_52_2_alg».proof.Proof.Products
import proofs.«129754_g77034533421747_cont_sun_c4_52_2_alg».proof.Proof.Reassoc
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.KernelIdeal.Layer

open Cert.KernelIdeal Cert.KernelIdeal.Gen Idealize.ShloMosaic Idealize.ShloMosaic.TcCoe Idealize.SL.Sem
open Idealize.ShloMosaic.ValueIdx
open Idealize.ShloMosaic.Pipeline (Dat)

/-! ## The blocks a point is handed -/

/-- The block indices over the grid: the row block and the output block move with the point along the rows, the other
    three blocks stay at the origin. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

section AnyInstance

variable {F : FTy → Type} [FloatOps F]
variable (m : (ℓ : Loc nD τ sig) → Buf (Elt F) ℓ)

/-- The weight block of every point is the whole weight matrix. -/
theorem weight_block (c : Dev nD) (t : Fin cfg0.N) : (iblk m c 1 t : Vec F S128x128 .f32) = V m c main_arg2 := by
  obtain ⟨-, -, e0, e1, -⟩ := block_indices t
  funext y
  unfold iblk
  rw [View.read_apply]
  show V m c main_arg2 (((cfg0.win 1).blk t).view.emb y) = V m c main_arg2 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The adjacency block of every point is the whole adjacency matrix. -/
theorem adjacency_block (c : Dev nD) (t : Fin cfg0.N) : (iblk m c 2 t : Vec F S128x128 .f32) = V m c main_arg1 := by
  obtain ⟨-, -, -, -, e0, e1, -⟩ := block_indices t
  funext y
  unfold iblk
  rw [View.read_apply]
  show V m c main_arg1 (((cfg0.win 2).blk t).view.emb y) = V m c main_arg1 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias block of every point is the whole one-row bias. -/
theorem bias_block (c : Dev nD) (t : Fin cfg0.N) : (iblk m c 3 t : Vec F S1x128 .f32) = V m c main_v0 := by
  obtain ⟨-, -, -, -, -, -, e0, e1, -⟩ := block_indices t
  funext y
  unfold iblk
  rw [View.read_apply]
  show V m c main_v0 (((cfg0.win 3).blk t).view.emb y) = V m c main_v0 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Entry `(p, k)` of the row block of point `t` is entry `(2000 t + p, k)` of the features. -/
theorem rows_block_at (c : Dev nD) (t : Fin cfg0.N) (p : Fin 2000) (k : Fin 128) (r : Fin 100000)
    (hr : r.val = 2000 * t.val + p.val) :
    (iblk m c 0 t : Vec F S2000x128 .f32) (ix2 p k) = V m c main_arg0 (ix2 r k) := by
  obtain ⟨e0, e1, -⟩ := block_indices t
  unfold iblk
  rw [View.read_apply]
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- The one-row bias the region finds is the bias laid out as a row by the host. -/
theorem bias_row (c : Dev nD) :
    (V m c main_v0 : Vec F S1x128 .f32) = shapeCast S1x128 (m ((c : Thread nD τ).loc main_arg3)) shapeCasts_S128_S1x128 := by
  dsimp only [V, hostOps0]
  after_results
  rfl

/-! ## The scratch after every point, and what every point leaves in its output block -/

/-- After every point the scratch holds the combined weight: the first point stores it, no later point stores into
    the scratch. -/
theorem scratch_eq (c : Dev nD) : ∀ (n : ℕ) (h : n < cfg0.N),
    (outsAt0 m c n h).2 = k0_pay1 (V m c main_arg2 : Vec F S128x128 .f32) (V m c main_arg1)
  | 0, h => by
    rw [outsAt0_A m c ⟨0, h⟩ rfl]
    dsimp only
    rw [Point.scratch_first, weight_block, adjacency_block]
  | n + 1, h => by
    have hN : cfg0.N = 50 := N_0
    have hB : ¬(⟨n + 1, h⟩ : Fin cfg0.N).val % 50 = 0 := by dsimp only; omega
    rw [outsAt0_B m c ⟨n + 1, h⟩ hB]
    dsimp only
    rw [Point.scratch_later]
    exact scratch_eq c n _

/-- Every point leaves in its output block its rows times the combined weight, plus the bias. -/
theorem block_eq (c : Dev nD) (t : Fin cfg0.N) :
    (outsAt0 m c t.val t.isLt).1
      = k0_pay2 (iblk m c 0 t : Vec F S2000x128 .f32) (k0_pay1 (V m c main_arg2 : Vec F S128x128 .f32) (V m c main_arg1)) (V m c main_v0) := by
  by_cases h0 : t.val % 50 = 0
  · rw [outsAt0_A m c t h0]
    dsimp only
    rw [Point.block_first, weight_block, adjacency_block, bias_block]
  · rw [outsAt0_B m c t h0]
    dsimp only
    rw [Point.block_later, scratch_eq, bias_block]

end AnyInstance

/-! ## Over the extended reals: the result array is the layer -/

variable (m : (ℓ : Loc nD τ sig) → Buf (Elt Ideal) ℓ) (ρ : Dev nD → PrngReg)

/-- The layer with the combined weight formed first, of the arrays the program was launched with. -/
abbrev layer (c : Dev nD) : S100000x128.Idx → EReal :=
  Cert.GraphConv.combinedFirst (m ((c : Thread nD τ).loc main_arg0)) (m ((c : Thread nD τ).loc main_arg1))
    (m ((c : Thread nD τ).loc main_arg2)) (m ((c : Thread nD τ).loc main_arg3))

/-- What point `t` writes back is block `t` of the layer. -/
theorem flushed_eq (c : Dev nD) (t : Fin cfg0.N) :
    (dats m 0 c).flushed 4 t = ((cfg0.win 4).blk t).view.read (Elt Ideal) (layer m c) := by
  have hN : t.val < 50 := lt_of_lt_of_eq t.isLt (show cfg0.N = 50 from N_0)
  obtain ⟨-, -, -, -, -, -, -, -, e0, e1⟩ := block_indices t
  rw [Value.flushed4 m c t, block_eq m c t]
  funext y
  obtain ⟨p, q, rfl⟩ : ∃ (p : Fin 2000) (q : Fin 128), y = ix2 p q := ⟨y 0, y 1, eq_ix2 y⟩
  have hp : p.val < 2000 := p.isLt
  have hi : ((cfg0.win 4).blk t).view.emb (ix2 p q) = ix2 (⟨2000 * t.val + p.val, by omega⟩ : Fin 100000) q :=
    funext fun a => Fin.ext (by
      match a with
      | ⟨0, _⟩ => show win0_4.index t (0 : Fin 2) * 2000 + 1 * p.val = 2000 * t.val + p.val; omega
      | ⟨1, _⟩ => show win0_4.index t (1 : Fin 2) * 128 + 1 * q.val = q.val; omega)
  show k0_pay2 (F := Ideal) (iblk m c 0 t) (k0_pay1 (V m c main_arg2) (V m c main_arg1)) (V m c main_v0) (ix2 p q)
    = layer m c (((cfg0.win 4).blk t).view.emb (ix2 p q))
  rw [hi, Products.block_at]
  simp only [Products.combined_at, rows_block_at m c t p _ ⟨2000 * t.val + p.val, by omega⟩ rfl]
  rw [bias_row, shapeCast_a_1a_apply, V_main_arg0, V_main_arg1, V_main_arg2]
  rfl

/-- An entry of the result lies in the block of point `t` when each of its coordinates lies in the block's range. -/
theorem mem_block (t : Fin cfg0.N) (i : S100000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v1).slice (win0_4.rect t)).set ↔ _
  rw [View.set_slice_whole, Rect.mem_set_unit]
  exact Iff.rfl

/-- Every entry of the result lies in some point's block: row `r` in the block of point `r / 2000`. -/
theorem covered (i : S100000x128.Idx) :
    ∃ t : Fin cfg0.N, (cfg0.win 4).flush t = true ∧ i ∈ ((cfg0.win 4).blk t).view.set := by
  have h0 : (i 0).val < 100000 := (i 0).isLt
  have h1 : (i 1).val < 128 := (i 1).isLt
  have hN : cfg0.N = 50 := N_0
  have ht : (i 0).val / 2000 < cfg0.N := by omega
  obtain ⟨-, -, -, -, -, -, -, -, e0, e1⟩ := block_indices ⟨(i 0).val / 2000, ht⟩
  refine ⟨⟨(i 0).val / 2000, ht⟩, flush0_4 _, ?_⟩
  rw [mem_block]
  intro a
  match a with
  | ⟨0, _⟩ =>
    show win0_4.index ⟨(i 0).val / 2000, ht⟩ (0 : Fin 2) * 2000 ≤ (i 0).val
      ∧ (i 0).val < win0_4.index ⟨(i 0).val / 2000, ht⟩ (0 : Fin 2) * 2000 + 2000
    rw [e0]; dsimp only; omega
  | ⟨1, _⟩ =>
    show win0_4.index ⟨(i 0).val / 2000, ht⟩ (1 : Fin 2) * 128 ≤ (i 1).val
      ∧ (i 1).val < win0_4.index ⟨(i 0).val / 2000, ht⟩ (1 : Fin 2) * 128 + 128
    rw [e1]; omega

/-- So the result array ends holding the layer. -/
theorem final (c : Dev nD) : (dats m 0 c).arrAt 4 cfg0.N = layer m c :=
  (dats m 0 c).arrAt_eq_of_cover 4 (layer m c) (fun t _ => flushed_eq m c t) (covered)

/-- The run: the result at the layer, the arguments unchanged. -/
theorem run : θ_run defs (onTc (τ := τ) (main (F := Ideal))) ⟨m, fun _ => 0, ρ⟩ fun r => ∀ c : Dev nD,
      r.2.mem ((c : Thread nD τ).loc main_v1) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Layer

end
-- ==== Proof.lean ====
/-
  One layer of a graph convolution, two ways.

  Given features `x` (100000 rows of 128), a dense adjacency matrix `adj` and a weight matrix `W1` (128 by 128 each)
  and a bias `b` (128), the reference computes `(x · W1) · adj + b`, multiplying left to right and adding the bias to
  every row. The kernel walks the rows in 50 blocks of 2000; at its first block it forms the combined weight
  `W1 · adj` once, keeps it in a scratch buffer for the rest of the walk, and for every block stores
  `rows · (W1 · adj) + b`. So the kernel's result is `x · (W1 · adj) + b`.

  Entry `(r, c)` of the reference's result is `(∑ j, (∑ k, x r k * W1 k j) * adj j c) + b c`, of the kernel's
  `(∑ k, x r k * (∑ j, W1 k j * adj j c)) + b c`. They are equal because matrix multiplication is associative — but
  associativity rests on distributing a factor over a sum, which fails among the extended reals when infinities of both
  signs meet. The precondition rules that out: every input entry is finite, hence a real number, and for real numbers the
  two double sums are the same sum of triple products `x r k * W1 k j * adj j c`, taken in the two orders.

  The parts: the law itself, over abstract finite index sets (Reassoc); real entries from the precondition (Finite);
  the reference read entry by entry (RefLayer); what one grid point stores, as pure functions of what it read (Pieces),
  those stored values entry by entry (Products), and from them the scratch after every point by induction on the
  point, each point's block, and the whole result array (KernelLayer). Below they are put together. Each program
  runs to the end without fault and leaves its arguments as they were; the idealized kernel is the kernel's own text
  read over the extended reals, so there is nothing to check between the two.
-/
import proofs.«129754_g77034533421747_cont_sun_c4_52_2_alg».proof.Defs
import proofs.«129754_g77034533421747_cont_sun_c4_52_2_alg».proof.Proof.Gen.Kernel
import proofs.«129754_g77034533421747_cont_sun_c4_52_2_alg».proof.Proof.Gen.Kernel.Frame
import proofs.«129754_g77034533421747_cont_sun_c4_52_2_alg».proof.Proof.Gen.KernelIdeal
import proofs.«129754_g77034533421747_cont_sun_c4_52_2_alg».proof.Proof.Gen.KernelIdeal.Frame
import proofs.«129754_g77034533421747_cont_sun_c4_52_2_alg».proof.Proof.Gen.KernelIdeal.Value
import proofs.«129754_g77034533421747_cont_sun_c4_52_2_alg».proof.Proof.Gen.ReferenceIdeal
import proofs.«129754_g77034533421747_cont_sun_c4_52_2_alg».proof.Proof.Gen.ReferenceIdeal.Run
import proofs.«129754_g77034533421747_cont_sun_c4_52_2_alg».proof.Proof.Gen.ReferenceIdeal.Read
import proofs.«129754_g77034533421747_cont_sun_c4_52_2_alg».proof.Proof.Gen.Pre_finite_inputs
import proofs.«129754_g77034533421747_cont_sun_c4_52_2_alg».proof.Proof.Reassoc
import proofs.«129754_g77034533421747_cont_sun_c4_52_2_alg».proof.Proof.Finite
import proofs.«129754_g77034533421747_cont_sun_c4_52_2_alg».proof.Proof.RefLayer
import proofs.«129754_g77034533421747_cont_sun_c4_52_2_alg».proof.Proof.KernelLayer
import Idealize.ShloMosaic.Adequacy
import Idealize.ShloMosaic.Init

noncomputable section

namespace Cert.Proof

open Idealize.ShloMosaic Idealize.SL.Sem

/-- The kernel, word by word, runs to the end and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree and are finite, the kernel's result array ends at `x · (W1 · adj) + b` and the
    reference's at `(x · W1) · adj + b`; with real entries the two are one array. -/
theorem algebraic : Cert.algebraic_KernelIdeal_ReferenceIdeal := by
  intro m ρ m' ρ' hpre hagree
  refine ⟨fun c => Cert.KernelIdeal.Layer.layer m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hadj, hW1⟩ := Cert.Pre_finite_inputs.Finite.entries_real _ _ _ _ (hpre c)
  rw [Cert.ReferenceIdeal.Read.val_main_v4_eq, Cert.ReferenceIdeal.Layer.result_eq,
    (hagree c).1, (hagree c).2.1, (hagree c).2.2.1, (hagree c).2.2.2]
  exact Cert.GraphConv.leftToRight_eq_combinedFirst _ _ _ _ hx hadj hW1

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
